-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192x64 : Shape := ⟨3, ![64, 8192, 64]⟩
abbrev S8x8 : Shape := ⟨2, ![8, 8]⟩
abbrev S_ : Shape := ⟨0, ![]⟩

class Facts : Prop where
  bcast_S_S64x8192x64 : S_.BroadcastsInDim S64x8192x64 (![] : Fin 0 → Fin S64x8192x64.rank)
  reducesTo_S64x8192x64_S_d0_1_2 : S64x8192x64.ReducesTo [0, 1, 2] S_
  h_S_ : 0 < S_.numel
  bcast_S_S8x8 : S_.BroadcastsInDim S8x8 (![] : Fin 0 → Fin S8x8.rank)
  reducesTo_S8x8_S_d0_1 : S8x8.ReducesTo [0, 1] S_

variable [Facts]

def fn {F : FTy → Type} [FloatOps F] (main_arg0 : FVec F S64x8192x64 .f32) (main_arg1 : FVec F S8x8 .f32) : IVec S_ 1 :=
  let main_v0 : FVec F S64x8192x64 .f32 := Host.absf main_arg0
  let main_cst : FVec F S_ .f32 := constant S_ .f32 0x7F800000#32
  let main_v1 : FVec F S64x8192x64 .f32 := broadcastInDim S64x8192x64 ![] bcast_S_S64x8192x64 main_cst
  let main_v2 : IVec S64x8192x64 1 := cmpf .olt main_v0 main_v1
  let main_c : IVec S_ 1 := constantI S_ 1 1#1
  let main_v3 : IVec S_ 1 := (fun x v => Host.reduce IntOp.andi x v reducesTo_S64x8192x64_S_d0_1_2 h_S_) main_v2 main_c
  let main_v4 : FVec F S8x8 .f32 := Host.absf main_arg1
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  main_v8
-- ==== Kernel.lean ====
abbrev S64x8192x64 : Shape := ⟨3, ![64, 8192, 64]⟩
abbrev S8x8 : Shape := ⟨2, ![8, 8]⟩
abbrev S_ : Shape := ⟨0, ![]⟩
abbrev S8 : Shape := ⟨1, ![8]⟩
abbrev S64 : Shape := ⟨1, ![64]⟩
abbrev S1x1x64 : Shape := ⟨3, ![1, 1, 64]⟩
abbrev S2x8192x64 : Shape := ⟨3, ![2, 8192, 64]⟩

abbrev nBuf : Space → Nat
  | .hbm => 8
  | .vmem => 5
  | .smem => 0
  | _ => 0

abbrev bufTy : (tb : Table) → Fin (tcTables nBuf tb) → BufTy
  | .hbm, ⟨0, _⟩ => ⟨S64x8192x64, .f32⟩
  | .hbm, ⟨1, _⟩ => ⟨S8x8, .f32⟩
  | .hbm, ⟨2, _⟩ => ⟨S_, .f32⟩
  | .hbm, ⟨3, _⟩ => ⟨S8, .f32⟩
  | .hbm, ⟨4, _⟩ => ⟨S8x8, .f32⟩
  | .hbm, ⟨5, _⟩ => ⟨S64, .f32⟩
  | .hbm, ⟨6, _⟩ => ⟨S1x1x64, .f32⟩
  | .hbm, ⟨7, _⟩ => ⟨S64x8192x64, .f32⟩
  | .local _ .vmem, ⟨0, _⟩ => ⟨S2x8192x64, .f32⟩
  | .local _ .vmem, ⟨1, _⟩ => ⟨S2x8192x64, .f32⟩
  | .local _ .vmem, ⟨2, _⟩ => ⟨S1x1x64, .f32⟩
  | .local _ .vmem, ⟨3, _⟩ => ⟨S2x8192x64, .f32⟩
  | .local _ .vmem, ⟨4, _⟩ => ⟨S2x8192x64, .f32⟩
  | _, _ => ⟨S64x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8x8_S8_d1 : S8x8.ReducesTo [1] S8
  h_S_ : 0 < S_.numel
  bcast_S8_S8x8_0 : S8.BroadcastsInDim S8x8 (![0] : Fin 1 → Fin S8x8.rank)
  shapeCasts_S8x8_S64 : S8x8.ShapeCasts S64
  shapeCasts_S64_S1x1x64 : S64.ShapeCasts S1x1x64
  inb_S2x8192x64_S2x8192x64_0_0_0 : ∀ a, (![0, 0, 0] : Fin 3 → Nat) a + S2x8192x64.size a ≤ S2x8192x64.size a
  h_S2x8192x64 : 0 < S2x8192x64.numel
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  broadcasts_S1x1x64_S2x8192x64 : S1x1x64.Broadcasts S2x8192x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192x64.size a ≤ S64x8192x64.size a
  hwx0_0 : ∀ i : grid0.Coords, EltTy.bits .f32 = 32 ∨ (Rect.block (s := S64x8192x64) S2x8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x64.size a ≤ S1x1x64.size a
  hwx0_1 : ∀ i : grid0.Coords, EltTy.bits .f32 = 32 ∨ (Rect.block (s := S1x1x64) S1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x8192x64.size a ≤ S64x8192x64.size a
  hwx0_2 : ∀ i : grid0.Coords, EltTy.bits .f32 = 32 ∨ (Rect.block (s := S64x8192x64) S2x8192x64.size (cc0_transform_2 i) (hinb0_2 i)).WholeWords (EltTy.packing .f32)

variable [Facts₀]

abbrev win0_0 : Pipeline.Window sig grid0 :=
  Pipeline.Window.ofSpec (Memref.whole main_arg0) S2x8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2x8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8192x64 : Shape := ⟨3, ![64, 8192, 64]⟩
abbrev S8x8 : Shape := ⟨2, ![8, 8]⟩
abbrev S64x8192x8x8 : Shape := ⟨4, ![64, 8192, 8, 8]⟩
abbrev S_ : Shape := ⟨0, ![]⟩
abbrev S8 : Shape := ⟨1, ![8]⟩
abbrev S1x1x8x1 : Shape := ⟨4, ![1, 1, 8, 1]⟩

abbrev nBuf : Space → Nat
  | .hbm => 10
  | .vmem => 0
  | .smem => 0
  | _ => 0

abbrev bufTy : (tb : Table) → Fin (tcTables nBuf tb) → BufTy
  | .hbm, ⟨0, _⟩ => ⟨S64x8192x64, .f32⟩
  | .hbm, ⟨1, _⟩ => ⟨S8x8, .f32⟩
  | .hbm, ⟨2, _⟩ => ⟨S64x8192x8x8, .f32⟩
  | .hbm, ⟨3, _⟩ => ⟨S_, .f32⟩
  | .hbm, ⟨4, _⟩ => ⟨S8, .f32⟩
  | .hbm, ⟨5, _⟩ => ⟨S1x1x8x1, .f32⟩
  | .hbm, ⟨6, _⟩ => ⟨S64x8192x8x8, .f32⟩
  | .hbm, ⟨7, _⟩ => ⟨S64x8192x8x8, .f32⟩
  | .hbm, ⟨8, _⟩ => ⟨S64x8192x8x8, .f32⟩
  | .hbm, ⟨9, _⟩ => ⟨S64x8192x64, .f32⟩
  | _, _ => ⟨S64x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  shapeCasts_S64x8192x64_S64x8192x8x8 : S64x8192x64.ShapeCasts S64x8192x8x8
  reducesTo_S8x8_S8_d1 : S8x8.ReducesTo [1] S8
  h_S_ : 0 < S_.numel
  bcast_S8_S1x1x8x1_2 : S8.BroadcastsInDim S1x1x8x1 (![2] : Fin 1 → Fin S1x1x8x1.rank)
  bcast_S1x1x8x1_S64x8192x8x8_0_1_2_3 : S1x1x8x1.BroadcastsInDim S64x8192x8x8 (![0, 1, 2, 3] : Fin 4 → Fin S64x8192x8x8.rank)
  shapeCasts_S64x8192x8x8_S64x8192x64 : S64x8192x8x8.ShapeCasts S64x8192x64

variable [Facts₀]

class Facts : Prop extends Facts₀ where

variable [Facts]
-- ==== Proof.Spec.lean ====
/-
  The function both programs compute, written once over the literal shapes.

  The activations are `x : [64, 8192, 64]`; the last axis is 8 heads of 8 wires, so lane `k` belongs to head
  `k / 8`. Each head `h` has one phase `ph h` (in both programs the sum of row `h` of `theta`, computed by the same
  host reduction, which this file never opens). The result is

      out (b, t, k) = cos (x (b, t, k) + ph (k / 8))

  on the extended reals. Nothing here needs the inputs finite: the two programs apply the same operations in the
  same order, and differ only in how the phase vector is laid out beside `x`.
-/
import Idealize.ShloMosaic.Lib.ValueIdx

noncomputable section

namespace Cert.CosPhase

open Idealize.ShloMosaic Idealize.ShloMosaic.ValueIdx

/-- The activations' shape: batch 64, sequence 8192, 64 lanes (8 heads of 8 wires). -/
abbrev XS : Shape := ⟨3, ![64, 8192, 64]⟩
/-- One phase per head. -/
abbrev PS : Shape := ⟨1, ![8]⟩

/-- The head of an entry: lane `k` of the 64 belongs to head `k / 8`. -/
def headOf (i : XS.Idx) : PS.Idx :=
  ix1 (⟨(i 2).val / 8, by have h : (i 2).val < 64 := (i 2).isLt; omega⟩ : Fin 8)

/-- The head's number, as a natural. -/
theorem headOf_val (i : XS.Idx) : (headOf i 0).val = (i 2).val / 8 := rfl

/-- `cos (x + the phase of the entry's head)`, entry by entry, on the extended reals. -/
def cosShift (x : XS.Idx → EReal) (ph : PS.Idx → EReal) : XS.Idx → EReal :=
  fun i => Ideal.cos (x i + ph (headOf i))

end Cert.CosPhase

end
-- ==== Proof.RefValue.lean ====
/-
  The reference, read at an entry, is `cosShift`.

  The reference views `x` as `[64, 8192, 8, 8]` (head, wire), adds the phase vector broadcast along every axis but the
  head's, takes the cosine, and views the result as `[64, 8192, 64]` again. Both reshapes keep the row-major position,
  so entry `(b, t, k)` of the result is computed at `(b, t, k / 8, k % 8)`: from `x (b, t, k)` and the phase of head
  `k / 8`. The host's cosine and the kernel's are one function on the extended reals.
-/
import proofs.«103321_j65481071410798_1_alg».proof.Proof.Gen.ReferenceIdeal.Read
import proofs.«103321_j65481071410798_1_alg».proof.Proof.Spec

noncomputable section

namespace Cert.CosPhase.Ref

open Idealize.ShloMosaic Idealize.ShloMosaic.ValueIdx
open Cert.ReferenceIdeal Cert.ReferenceIdeal.Read Cert.CosPhase

/-- Through the two reshapes an entry of the result reads `x` at the same entry. -/
theorem x_index (i : S64x8192x64.Idx) : idx_main_v0 (idx_main_v6 i) = i := by
  have h0 : (i 0).val < 64 := (i 0).isLt
  have h1 : (i 1).val < 8192 := (i 1).isLt
  have h2 : (i 2).val < 64 := (i 2).isLt
  funext a; apply Fin.ext
  match a with
  | ⟨0, _⟩ =>
    show ((((((i 0).val * 8192 + (i 1).val) * 64 + (i 2).val) / 524288 * 8192 + (((i 0).val * 8192 + (i 1).val) * 64 + (i 2).val) / 64 % 8192) * 8 + (((i 0).val * 8192 + (i 1).val) * 64 + (i 2).val) / 8 % 8) * 8 + (((i 0).val * 8192 + (i 1).val) * 64 + (i 2).val) % 8) / 524288 = (i 0).val
    omega
  | ⟨1, _⟩ =>
    show ((((((i 0).val * 8192 + (i 1).val) * 64 + (i 2).val) / 524288 * 8192 + (((i 0).val * 8192 + (i 1).val) * 64 + (i 2).val) / 64 % 8192) * 8 + (((i 0).val * 8192 + (i 1).val) * 64 + (i 2).val) / 8 % 8) * 8 + (((i 0).val * 8192 + (i 1).val) * 64 + (i 2).val) % 8) / 64 % 8192 = (i 1).val
    omega
  | ⟨2, _⟩ =>
    show ((((((i 0).val * 8192 + (i 1).val) * 64 + (i 2).val) / 524288 * 8192 + (((i 0).val * 8192 + (i 1).val) * 64 + (i 2).val) / 64 % 8192) * 8 + (((i 0).val * 8192 + (i 1).val) * 64 + (i 2).val) / 8 % 8) * 8 + (((i 0).val * 8192 + (i 1).val) * 64 + (i 2).val) % 8) % 64 = (i 2).val
    omega

/-- Through the reshape and the two broadcasts an entry of the result reads the phase of its head. -/
theorem phase_index (i : S64x8192x64.Idx) : idx_main_v2 (idx_main_v3 (idx_main_v6 i)) = headOf i := by
  have h0 : (i 0).val < 64 := (i 0).isLt
  have h1 : (i 1).val < 8192 := (i 1).isLt
  have h2 : (i 2).val < 64 := (i 2).isLt
  funext a; apply Fin.ext
  match a with
  | ⟨0, _⟩ =>
    show (((i 0).val * 8192 + (i 1).val) * 64 + (i 2).val) / 8 % 8 = (i 2).val / 8
    omega

/-- The reference's result is `cos (x + phase of the head)` entry by entry, the phase vector being the reference's own
    row sums of `theta`. -/
theorem result_eq (x0 : (⟨S64x8192x64, .f32⟩ : BufTy).Contents (Elt Ideal)) (x1 : (⟨S8x8, .f32⟩ : BufTy).Contents (Elt Ideal)) :
    val_main_v6 (F := Ideal) x0 x1 = cosShift x0 (val_main_v1 (F := Ideal) x1) := by
  funext i
  rw [val_main_v6_apply, val_main_v5_apply, val_main_v4_apply, val_main_v0_apply, val_main_v3_apply, val_main_v2_apply,
    x_index, phase_index]
  rfl

end Cert.CosPhase.Ref

end
-- ==== Proof.PhaseLayout.lean ====
/-
  The kernel's phase operand, read at a lane.

  Before the region the host lays the phase vector `ph : [8]` (one entry per head) out beside the 64 lanes of `x`:
  it is broadcast to `[8, 8]` (head, wire), every wire of a head holding the head's phase, and that array is viewed
  as `[64]` and then as `[1, 1, 64]`. Both views keep the row-major position, so lane `k` comes from
  `(k / 8, k % 8)` and holds the phase of head `k / 8`.
-/
import proofs.«103321_j65481071410798_1_alg».proof.Proof.Gen.KernelIdeal.Frame
import Idealize.ShloMosaic.Lib.StableHlo.Run
import Idealize.ShloMosaic.Lib.Pipeline.Value
import Idealize.ShloMosaic.Lib.ValueIdx

noncomputable section

namespace Cert.CosPhase.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The phase vector as the kernel's host code computes it: the sum of each row of `theta`, from zero. -/
def phase (c : Dev nD) : S8.Idx → EReal :=
  Host.reduceAdd (F := Ideal) (m ((c : Thread nD τ).loc main_arg1)) (constant S_ .f32 0x00000000#32) reducesTo_S8x8_S8_d1 h_S_

/-- The array the region's second window stages is the phase vector repeated over the wires, viewed as `[1, 1, 64]`. -/
theorem phaseFull_eq (c : Dev nD) : (V m c main_v3 : S1x1x64.Idx → EReal) =
    shapeCast S1x1x64 (shapeCast S64 (broadcastInDim S8x8 ![0] bcast_S8_S8x8_0 (phase m c)) shapeCasts_S8x8_S64) shapeCasts_S64_S1x1x64 := by
  dsimp only [Gen.V, Gen.hostOps0]; after_results; rfl

/-- Lane `k` of a vector repeated over the wires and viewed as `[1, 1, 64]` is its entry `k / 8`. -/
theorem repeat_apply (ph : S8.Idx → EReal) (j : S1x1x64.Idx) (h : S8.Idx) (hh : (h 0).val = (j 2).val / 8) :
    shapeCast S1x1x64 (shapeCast S64 (broadcastInDim S8x8 ![0] bcast_S8_S8x8_0 ph) shapeCasts_S8x8_S64) shapeCasts_S64_S1x1x64 j = ph h := by
  have hj0 : (j 0).val < 1 := (j 0).isLt
  have hj1 : (j 1).val < 1 := (j 1).isLt
  have hj2 : (j 2).val < 64 := (j 2).isLt
  refine (shapeCast_apply _ shapeCasts_S64_S1x1x64 j (ix1 (⟨(j 2).val, hj2⟩ : Fin 64)) ?_).trans ?_
  · rewrite [Shape.rowMajor_val_one, Shape.rowMajor_val_three]
    show (j 2).val = ((j 0).val * 1 + (j 1).val) * 64 + (j 2).val
    omega
  refine (shapeCast_apply _ shapeCasts_S8x8_S64 (ix1 (⟨(j 2).val, hj2⟩ : Fin 64))
    (ix2 (⟨(j 2).val / 8, by omega⟩ : Fin 8) (⟨(j 2).val % 8, by omega⟩ : Fin 8)) ?_).trans ?_
  · rewrite [Shape.rowMajor_val_two, Shape.rowMajor_val_one]
    show (j 2).val / 8 * 8 + (j 2).val % 8 = (j 2).val
    omega
  refine broadcastInDim_apply _ bcast_S8_S8x8_0 ph _ h (fun a => match a with | ⟨0, _⟩ => ?_)
  show (h 0).val = if (8 : Nat) = 1 then 0 else (j 2).val / 8
  rw [if_neg (by decide)]
  exact hh

end Cert.CosPhase.Kernel

end
-- ==== Proof.KernelValue.lean ====
/-
  The kernel's result array is `cosShift`.

  The grid has 32 points; point `t` stages rows `2t, 2t + 1` of `x` (a `[2, 8192, 64]` block), the whole
  `[1, 1, 64]` phase operand, and writes the same rows of the result. Inside a block the body computes
  `cos (x-block + phase lane)`, the phase lane broadcast over the rows and the sequence. So entry `(r, s, k)` of block
  `t` is `cos (x (2t + r, s, k) + phase of head k / 8)`: block `t` of `cosShift`. The 32 blocks tile the batch axis, so
  the array after the run is `cosShift` everywhere.
-/
import proofs.«103321_j65481071410798_1_alg».proof.Proof.Gen.KernelIdeal.Value
import proofs.«103321_j65481071410798_1_alg».proof.Proof.PhaseLayout
import proofs.«103321_j65481071410798_1_alg».proof.Proof.Spec

set_option maxRecDepth 16384

noncomputable section

namespace Cert.CosPhase.Kernel

open Cert.KernelIdeal Cert.KernelIdeal.Gen Idealize.ShloMosaic Idealize.ShloMosaic.TcCoe Idealize.SL.Sem
open Idealize.ShloMosaic.ValueIdx
open Idealize.ShloMosaic.Pipeline (Dat)
open Cert.CosPhase

variable (m : (ℓ : Loc nD τ sig) → Buf (Elt Ideal) ℓ) (ρ : Dev nD → PrngReg)

/-- `x` as the region finds it, at its literal type. -/
abbrev xarr (c : Dev nD) : S64x8192x64.Idx → EReal := V m c main_arg0
/-- The phase operand as the region finds it, at its literal type. -/
abbrev pharr (c : Dev nD) : S1x1x64.Idx → EReal := V m c main_v3

theorem zero_offsets : (![0, 0, 0] : Fin 3 → Nat) = fun _ => 0 := funext fun a => by fin_cases a <;> rfl

/-! ## One block -/

/-- What the body leaves in the output block, from ANY two staged blocks: entry `y` is the cosine of the `x` block's
    entry `y` plus the phase operand's lane `y 2`. -/
theorem block_apply (P0 : Vec Ideal S2x8192x64 .f32) (P1 : Vec Ideal S1x1x64 .f32) (y : S2x8192x64.Idx) :
    out0_2 P0 P1 y = Ideal.cos (P0 y + P1 (Cert.KernelIdeal.Value.ix2_1 y)) := by
  unfold out0_2
  rw [Cert.KernelIdeal.Value.canon2_eq]
  simp only [View.ld_unit_zero (S := S2x8192x64) zero_offsets, View.ld_unit_zero (S := S1x1x64) zero_offsets]
  have e : Cert.KernelIdeal.Value.ix2_0 y = y :=
    funext fun a => Fin.ext (by match a with | ⟨0, _⟩ => rfl | ⟨1, _⟩ => rfl | ⟨2, _⟩ => rfl)
  show Ideal.cos (P0 (Cert.KernelIdeal.Value.ix2_0 y) + P1 (Cert.KernelIdeal.Value.ix2_1 y)) = _
  rw [e]

/-! ## The blocks' places -/

/-- The index maps over the 32 points: the `x` window moves with the output window, the phase window stays at the origin,
    and the output's block index is the point's number along the batch axis and zero along the other two. -/
theorem idx_facts : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (2 : Fin 3) = 0
    ∧ win0_2.index t (1 : Fin 3) = 0
    ∧ win0_2.index t (2 : Fin 3) = 0 :=
  (by decide +kernel : ∀ t : Fin grid0.N, _)

/-- Every pair of rows is some point's block. -/
theorem idx_onto : ∀ q : Fin 32, ∃ t : Fin cfg0.N, win0_2.index t = ![q.val, 0, 0] :=
  (by decide +kernel : ∀ q : Fin 32, ∃ t : Fin grid0.N, win0_2.index t = ![q.val, 0, 0])

/-- WHAT POINT `t` WRITES BACK is block `t` of `cosShift` of `x` and the phase vector. -/
theorem flushed_eq (c : Dev nD) (t : Fin cfg0.N) :
    (dats m 0 c).flushed 2 t
      = ((cfg0.win 2).blk t).view.read (Elt Ideal) (cosShift (V m c main_arg0) (phase m c)) := by
  rw [Cert.KernelIdeal.Value.flushed2]
  obtain ⟨a0, a1, a2, b2, o1, o2⟩ := idx_facts t
  funext y
  have hy2 : (y 2).val < 64 := (y 2).isLt
  show out0_2 (iblk m c 0 t) (iblk m c 1 t) y
    = cosShift (xarr m c) (phase m c) (((cfg0.win 2).blk t).view.emb y)
  refine (block_apply (iblk m c 0 t) (iblk m c 1 t) y).trans ?_
  show Ideal.cos (xarr m c (((cfg0.win 0).blk t).view.emb y)
      + pharr m c (((cfg0.win 1).blk t).view.emb (Cert.KernelIdeal.Value.ix2_1 y)))
    = Ideal.cos (xarr m c (((cfg0.win 2).blk t).view.emb y) + phase m c (headOf (((cfg0.win 2).blk t).view.emb y)))
  have hx : ((cfg0.win 0).blk t).view.emb y = ((cfg0.win 2).blk t).view.emb y := by
    funext a; apply Fin.ext
    match a with
    | ⟨0, _⟩ => show win0_0.index t (0 : Fin 3) * 2 + 1 * (y 0).val = win0_2.index t (0 : Fin 3) * 2 + 1 * (y 0).val; omega
    | ⟨1, _⟩ => show win0_0.index t (1 : Fin 3) * 8192 + 1 * (y 1).val = win0_2.index t (1 : Fin 3) * 8192 + 1 * (y 1).val; omega
    | ⟨2, _⟩ => show win0_0.index t (2 : Fin 3) * 64 + 1 * (y 2).val = win0_2.index t (2 : Fin 3) * 64 + 1 * (y 2).val; omega
  have hp : pharr m c (((cfg0.win 1).blk t).view.emb (Cert.KernelIdeal.Value.ix2_1 y))
      = phase m c (headOf (((cfg0.win 2).blk t).view.emb y)) := by
    refine (congrFun (phaseFull_eq m c) _).trans ?_
    refine repeat_apply (phase m c) _ _ ?_
    show (win0_2.index t (2 : Fin 3) * 64 + 1 * (y 2).val) / 8 = (win0_1.index t (2 : Fin 3) * 64 + 1 * (y 2).val) / 8
    rw [b2, o2]
  exact congrArg₂ (fun a b : EReal => Ideal.cos (a + b)) (congrArg (xarr m c) hx) hp

/-! ## The blocks cover the array -/

/-- An entry is in point `t`'s block iff each coordinate is in the block's range on its axis. -/
theorem mem_blk (t : Fin cfg0.N) (i : S64x8192x64.Idx) :
    i ∈ ((cfg0.win 2).blk t).view.set ↔ ∀ a : Fin 3, win0_2.index t a * S2x8192x64.size a ≤ (i a).val ∧ (i a).val < win0_2.index t a * S2x8192x64.size a + S2x8192x64.size a := by
  show i ∈ ((View.whole main_v4).slice (win0_2.rect t)).set ↔ _
  rw [View.set_slice_whole, Rect.mem_set_unit]
  exact Iff.rfl

/-- Row `b` of the batch is in the block of point `b / 2`. -/
theorem cover (i : S64x8192x64.Idx) :
    ∃ t : Fin cfg0.N, (cfg0.win 2).flush t = true ∧ i ∈ ((cfg0.win 2).blk t).view.set := by
  have hi0 : (i 0).val < 64 := (i 0).isLt
  have hi1 : (i 1).val < 8192 := (i 1).isLt
  have hi2 : (i 2).val < 64 := (i 2).isLt
  obtain ⟨t, ht⟩ := idx_onto ⟨(i 0).val / 2, by omega⟩
  have q0 : win0_2.index t (0 : Fin 3) = (i 0).val / 2 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 8192 ≤ (i 1).val ∧ (i 1).val < win0_2.index t (1 : Fin 3) * 8192 + 8192; omega
  | ⟨2, _⟩ => show win0_2.index t (2 : Fin 3) * 64 ≤ (i 2).val ∧ (i 2).val < win0_2.index t (2 : Fin 3) * 64 + 64; omega

/-! ## The array after the run -/

/-- THE RESULT ARRAY after the run is `cos (x + phase of the head)` of the arguments as launched. -/
theorem final (c : Dev nD) :
    (dats m 0 c).arrAt 2 cfg0.N = cosShift (m ((c : Thread nD τ).loc main_arg0)) (phase m c) := by
  rw [← V_main_arg0 m c]
  exact (dats m 0 c).arrAt_eq_of_cover 2 (cosShift (V m c main_arg0) (phase m c)) (fun t _ => flushed_eq m c t) cover

/-- The kernel's run, read: the result at `cosShift`, the arguments unchanged. -/
theorem run : θ_run defs (onTc (τ := τ) (main (F := Ideal))) ⟨m, fun _ => 0, ρ⟩ fun r => ∀ c : Dev nD,
      r.2.mem ((c : Thread nD τ).loc main_v4) = cosShift (m ((c : Thread nD τ).loc main_arg0)) (phase m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.CosPhase.Kernel

end
-- ==== Proof.lean ====
/-
  The certificate of a phase-shifted cosine over `x : [64, 8192, 64]` (8 heads of 8 wires on the last axis) and
  `theta : [8, 8]`:

      out (b, t, k) = cos (x (b, t, k) + ph (k / 8)),    ph h = the sum of row h of theta.

  Both programs compute `ph` by the same host sum, which is never opened. The reference views `x` as
  `[64, 8192, 8, 8]`, adds `ph` broadcast along every axis but the head's, takes the cosine and views the result as
  `[64, 8192, 64]`. The kernel repeats `ph` over the 8 wires of each head into a `[1, 1, 64]` operand on the host, and
  over a grid of 32 points, each holding two rows of the batch, computes `cos (x-block + operand)` with the operand
  broadcast over the block. Read at an entry both are `cosShift` (Proof/Spec.lean): the reference by following its
  two reshapes and two broadcasts (Proof/RefValue.lean), the kernel by reading one block at a symbolic point and then
  covering the batch axis by the 32 blocks (Proof/PhaseLayout.lean, Proof/KernelValue.lean). The cosine is one
  function on the extended reals whether the kernel or the host applies it, and the two sides apply the same
  operations to the same operands, so no law of arithmetic is used and the inputs' finiteness is never opened.
  The ideal pass rewrote nothing, so `preserves` is trivial; the kernels' frames are the generated ones, and the
  reference's frame is its generated run with the result dropped.
-/
import proofs.«103321_j65481071410798_1_alg».proof.Defs
import proofs.«103321_j65481071410798_1_alg».proof.Proof.Gen.Kernel
import proofs.«103321_j65481071410798_1_alg».proof.Proof.Gen.Kernel.Skeleton
import proofs.«103321_j65481071410798_1_alg».proof.Proof.Gen.Kernel.Launch
import proofs.«103321_j65481071410798_1_alg».proof.Proof.Gen.Kernel.Points
import proofs.«103321_j65481071410798_1_alg».proof.Proof.Gen.Kernel.Frame
import proofs.«103321_j65481071410798_1_alg».proof.Proof.Gen.KernelIdeal
import proofs.«103321_j65481071410798_1_alg».proof.Proof.Gen.KernelIdeal.Skeleton
import proofs.«103321_j65481071410798_1_alg».proof.Proof.Gen.KernelIdeal.Launch
import proofs.«103321_j65481071410798_1_alg».proof.Proof.Gen.KernelIdeal.Points
import proofs.«103321_j65481071410798_1_alg».proof.Proof.Gen.KernelIdeal.Frame
import proofs.«103321_j65481071410798_1_alg».proof.Proof.Gen.ReferenceIdeal
import proofs.«103321_j65481071410798_1_alg».proof.Proof.Gen.Pre_finite_inputs
import proofs.«103321_j65481071410798_1_alg».proof.Proof.Gen.KernelIdeal.Value
import proofs.«103321_j65481071410798_1_alg».proof.Proof.Gen.ReferenceIdeal.Run
import proofs.«103321_j65481071410798_1_alg».proof.Proof.Gen.ReferenceIdeal.Read
import proofs.«103321_j65481071410798_1_alg».proof.Proof.Spec
import proofs.«103321_j65481071410798_1_alg».proof.Proof.RefValue
import proofs.«103321_j65481071410798_1_alg».proof.Proof.PhaseLayout
import proofs.«103321_j65481071410798_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on `x` and `theta` both programs end with `cos (x + phase of the head)`: the kernel's array by
    `Kernel.run`, the reference's by its run read at an entry (`Ref.result_eq`); the two phase vectors are the same
    host sum of the same `theta`. -/
theorem algebraic : Cert.algebraic_KernelIdeal_ReferenceIdeal := by
  intro m ρ m' ρ' _ hagree
  refine ⟨fun c => Cert.CosPhase.cosShift (m ((c : Thread Cert.KernelIdeal.nD Cert.KernelIdeal.τ).loc Cert.KernelIdeal.main_arg0))
      (Cert.CosPhase.Kernel.phase m c), Cert.CosPhase.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v6_eq, Cert.CosPhase.Ref.result_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
